-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S256x512 : Shape := ⟨2, ![256, 512]⟩
abbrev S2x256 : Shape := ⟨2, ![2, 256]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S2x256 : S_.BroadcastsInDim S2x256 (![] : Fin 0 → Fin S2x256.rank)
  reducesTo_S2x256_S_d0_1 : S2x256.ReducesTo [0, 1] S_

variable [Facts]

def fn {F : FTy → Type} [FloatOps F] (main_arg0 : FVec F S100000x512 .f32) (main_arg1 : FVec F S256x512 .f32) (main_arg2 : FVec F S2x256 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S2x256 .f32 := Host.absf main_arg2
  let main_cst_2 : FVec F S_ .f32 := constant S_ .f32 0x7F800000#32
  let main_v10 : FVec F S2x256 .f32 := broadcastInDim S2x256 ![] bcast_S_S2x256 main_cst_2
  let main_v11 : IVec S2x256 1 := cmpf .olt main_v9 main_v10
  let main_c_3 : IVec S_ 1 := constantI S_ 1 1#1
  let main_v12 : IVec S_ 1 := (fun x v => Host.reduce IntOp.andi x v reducesTo_S2x256_S_d0_1 h_S_) main_v11 main_c_3
  let main_v13 : IVec S_ 1 := andi main_v8 main_v12
  main_v13
-- ==== Kernel.lean ====
abbrev S100000x512 : Shape := ⟨2, ![100000, 512]⟩
abbrev S256x512 : Shape := ⟨2, ![256, 512]⟩
abbrev S2x256 : Shape := ⟨2, ![2, 256]⟩
abbrev S100000x2 : Shape := ⟨2, ![100000, 2]⟩
abbrev S2000x512 : Shape := ⟨2, ![2000, 512]⟩
abbrev S2000x2 : Shape := ⟨2, ![2000, 2]⟩
abbrev S2000x256 : Shape := ⟨2, ![2000, 256]⟩

abbrev nBuf : Space → Nat
  | .hbm => 6
  | .vmem => 6
  | .smem => 0
  | _ => 0

abbrev bufTy : (tb : Table) → Fin (tcTables nBuf tb) → BufTy
  | .hbm, ⟨0, _⟩ => ⟨S100000x512, .f32⟩
  | .hbm, ⟨1, _⟩ => ⟨S256x512, .f32⟩
  | .hbm, ⟨2, _⟩ => ⟨S2x256, .f32⟩
  | .hbm, ⟨3, _⟩ => ⟨S256x512, .bf16⟩
  | .hbm, ⟨4, _⟩ => ⟨S2x256, .bf16⟩
  | .hbm, ⟨5, _⟩ => ⟨S100000x2, .f32⟩
  | .local _ .vmem, ⟨0, _⟩ => ⟨S2000x512, .f32⟩
  | .local _ .vmem, ⟨1, _⟩ => ⟨S2000x512, .f32⟩
  | .local _ .vmem, ⟨2, _⟩ => ⟨S256x512, .bf16⟩
  | .local _ .vmem, ⟨3, _⟩ => ⟨S2x256, .bf16⟩
  | .local _ .vmem, ⟨4, _⟩ => ⟨S2000x2, .f32⟩
  | .local _ .vmem, ⟨5, _⟩ => ⟨S2000x2, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S2x256_S2x256_0_0 : ∀ a, (![0, 0] : Fin 2 → Nat) a + S2x256.size a ≤ S2x256.size a
  h_S2x256 : 0 < S2x256.numel
  shapeCasts_S2x256_S2x256 : S2x256.ShapeCasts S2x256
  inb_S2000x2_S2000x2_0_0 : ∀ a, (![0, 0] : Fin 2 → Nat) a + S2000x2.size a ≤ S2000x2.size a
  h_S2000x2 : 0 < S2000x2.numel
  dot_S2000x512_S256x512_S2000x256_1_1_0_0_n_n_wf : DotDims.WF S2000x512 S256x512 S2000x256 [1] [1] [0] [0] [] []
  dot_S2000x256_S2x256_S2000x2_1_1_0_0_n_n_wf : DotDims.WF S2000x256 S2x256 S2000x2 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x256.size a ≤ S2x256.size a
  hwx0_2 : ∀ i : grid0.Coords, EltTy.bits .bf16 = 32 ∨ (Rect.block (s := S2x256) S2x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x2.size a ≤ S100000x2.size a
  hwx0_3 : ∀ i : grid0.Coords, EltTy.bits .f32 = 32 ∨ (Rect.block (s := S100000x2) S2000x2.size (cc0_transform_3 i) (hinb0_3 i)).WholeWords (EltTy.packing .f32)

variable [Facts₀]

def dot_S2000x512_S256x512_S2000x256_1_1_0_0_n_n : DotDims S2000x512 S256x512 S2000x256 where
  lhsContracting := [1]
  rhsContracting := [1]
  lhsNonContracting := [0]
  rhsNonContracting := [0]
  lhsBatch := []
  rhsBatch := []
  wf := dot_S2000x512_S256x512_S2000x256_1_1_0_0_n_n_wf
def dot_S2000x256_S2x256_S2000x2_1_1_0_0_n_n : DotDims S2000x256 S2x256 S2000x2 where
  lhsContracting := [1]
  rhsContracting := [1]
  lhsNonContracting := [0]
  rhsNonContracting := [0]
  lhsBatch := []
  rhsBatch := []
  wf := dot_S2000x256_S2x256_S2000x2_1_1_0_0_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S2x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2000x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x512 : Shape := ⟨2, ![100000, 512]⟩
abbrev S256x512 : Shape := ⟨2, ![256, 512]⟩
abbrev S2x256 : Shape := ⟨2, ![2, 256]⟩
abbrev S512x256 : Shape := ⟨2, ![512, 256]⟩
abbrev S100000x256 : Shape := ⟨2, ![100000, 256]⟩
abbrev S_ : Shape := ⟨0, ![]⟩
abbrev S256x2 : Shape := ⟨2, ![256, 2]⟩
abbrev S100000x2 : Shape := ⟨2, ![100000, 2]⟩

abbrev nBuf : Space → Nat
  | .hbm => 14
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S256x512, .f32⟩
  | .hbm, ⟨2, _⟩ => ⟨S2x256, .f32⟩
  | .hbm, ⟨3, _⟩ => ⟨S512x256, .f32⟩
  | .hbm, ⟨4, _⟩ => ⟨S100000x256, .f32⟩
  | .hbm, ⟨5, _⟩ => ⟨S_, .f32⟩
  | .hbm, ⟨6, _⟩ => ⟨S100000x256, .f32⟩
  | .hbm, ⟨7, _⟩ => ⟨S100000x256, .i1⟩
  | .hbm, ⟨8, _⟩ => ⟨S_, .f32⟩
  | .hbm, ⟨9, _⟩ => ⟨S100000x256, .f32⟩
  | .hbm, ⟨10, _⟩ => ⟨S100000x256, .f32⟩
  | .hbm, ⟨11, _⟩ => ⟨S100000x256, .f32⟩
  | .hbm, ⟨12, _⟩ => ⟨S256x2, .f32⟩
  | .hbm, ⟨13, _⟩ => ⟨S100000x2, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  transposes_S256x512_S512x256_1_0 : S256x512.Transposes [1, 0] S512x256
  bcast_S_S100000x256 : S_.BroadcastsInDim S100000x256 (![] : Fin 0 → Fin S100000x256.rank)
  transposes_S2x256_S256x2_1_0 : S2x256.Transposes [1, 0] S256x2
  dot_S100000x512_S512x256_S100000x256_1_0_0_1_n_n_wf : DotDims.WF S100000x512 S512x256 S100000x256 [1] [0] [0] [1] [] []
  dot_S100000x256_S256x2_S100000x2_1_0_0_1_n_n_wf : DotDims.WF S100000x256 S256x2 S100000x2 [1] [0] [0] [1] [] []

variable [Facts₀]

def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def dot_S100000x256_S256x2_S100000x2_1_0_0_1_n_n : DotDims S100000x256 S256x2 S100000x2 where
  lhsContracting := [1]
  rhsContracting := [0]
  lhsNonContracting := [0]
  rhsNonContracting := [1]
  lhsBatch := []
  rhsBatch := []
  wf := dot_S100000x256_S256x2_S100000x2_1_0_0_1_n_n_wf

class Facts : Prop extends Facts₀ where

variable [Facts]
-- ==== Proof.KernelDots.lean ====
/-
  The kernel's two matrix products, each accumulated into the zero matrix, read at one entry over the extended reals.
  Both contract the second coordinate of the left factor with the second coordinate of the right factor (the right
  factor is stored with the contracted coordinate last), so entry (p, n) of either product is the inner product of row p
  of the left factor with row n of the right factor. Each coordinate of the two operand positions is read off the
  product's dimension numbers: the left row is the output row, the right row is the output column, and the contracted
  coordinate of both is the summation index.
-/
import proofs.«117418_g39908836114553_cont_8to1_b_374_4_alg».proof.Proof.Gen.KernelIdeal
import Idealize.ShloMosaic.PureOps.Ideal.Laws
import Idealize.ShloMosaic.Lib.ValueIdx

noncomputable section

open Idealize.ShloMosaic Idealize.ShloMosaic.ValueIdx

namespace Cert.KernelIdeal.Dots

open Cert.KernelIdeal Cert.KernelIdeal.Gen

/-! ## The first product: a block of 2000 rows of x against the 256 rows of the first weight matrix -/

theorem first_lhs_0 (i : S2000x256.Idx) (q : dot_S2000x512_S256x512_S2000x256_1_1_0_0_n_n.contr.Idx) :
    (dot_S2000x512_S256x512_S2000x256_1_1_0_0_n_n.lhsIdx i q 0).val = (i 0).val := by
  unfold DotDims.lhsIdx
  rw [dif_neg (show ¬(0 : Fin S2000x512.rank) ∈ dot_S2000x512_S256x512_S2000x256_1_1_0_0_n_n.lhsBatch by decide), dif_pos (show (0 : Fin S2000x512.rank) ∈ dot_S2000x512_S256x512_S2000x256_1_1_0_0_n_n.lhsNonContracting by decide)]
  rfl
theorem first_lhs_1 (i : S2000x256.Idx) (q : dot_S2000x512_S256x512_S2000x256_1_1_0_0_n_n.contr.Idx) :
    (dot_S2000x512_S256x512_S2000x256_1_1_0_0_n_n.lhsIdx i q 1).val = (q ⟨0, by decide⟩).val :=
  dot_S2000x512_S256x512_S2000x256_1_1_0_0_n_n.lhsIdx_val_of_single rfl i q
theorem first_rhs_0 (i : S2000x256.Idx) (q : dot_S2000x512_S256x512_S2000x256_1_1_0_0_n_n.contr.Idx) :
    (dot_S2000x512_S256x512_S2000x256_1_1_0_0_n_n.rhsIdx i q 0).val = (i 1).val := by
  unfold DotDims.rhsIdx
  rw [dif_neg (show ¬(0 : Fin S256x512.rank) ∈ dot_S2000x512_S256x512_S2000x256_1_1_0_0_n_n.rhsBatch by decide), dif_pos (show (0 : Fin S256x512.rank) ∈ dot_S2000x512_S256x512_S2000x256_1_1_0_0_n_n.rhsNonContracting by decide)]
  rfl
theorem first_rhs_1 (i : S2000x256.Idx) (q : dot_S2000x512_S256x512_S2000x256_1_1_0_0_n_n.contr.Idx) :
    (dot_S2000x512_S256x512_S2000x256_1_1_0_0_n_n.rhsIdx i q 1).val = (q ⟨0, by decide⟩).val :=
  dot_S2000x512_S256x512_S2000x256_1_1_0_0_n_n.rhsIdx_val_of_single rfl i q

/-- Entry (p, n) of the first product: the inner product of row p of the left factor with row n of the right factor. -/
theorem first_apply {φ₁ φ₂ : FTy} (l : FVec Ideal S2000x512 φ₁) (r : FVec Ideal S256x512 φ₂) (p : Fin 2000) (n : Fin 256) :
    matmul dot_S2000x512_S256x512_S2000x256_1_1_0_0_n_n none l r (constant S2000x256 .f32 0x00000000#32) (ix2 p n)
      = ∑ k : Fin 512, l (ix2 p k) * r (ix2 n k) := by
  simp only [matmul]
  rw [Ideal.matmul_constant_zero_apply, ← Equiv.sum_comp (contrEquiv1 dot_S2000x512_S256x512_S2000x256_1_1_0_0_n_n 512 rfl rfl).symm]
  refine Finset.sum_congr rfl fun k _ => ?_
  have hk := contrEquiv1_symm_val dot_S2000x512_S256x512_S2000x256_1_1_0_0_n_n 512 rfl rfl k
  have el : dot_S2000x512_S256x512_S2000x256_1_1_0_0_n_n.lhsIdx (ix2 p n) ((contrEquiv1 dot_S2000x512_S256x512_S2000x256_1_1_0_0_n_n 512 rfl rfl).symm k) = ix2 p k := funext fun a => Fin.ext (by
    match a with
    | ⟨0, _⟩ => exact first_lhs_0 _ _
    | ⟨1, _⟩ => exact (first_lhs_1 _ _).trans hk)
  have er : dot_S2000x512_S256x512_S2000x256_1_1_0_0_n_n.rhsIdx (ix2 p n) ((contrEquiv1 dot_S2000x512_S256x512_S2000x256_1_1_0_0_n_n 512 rfl rfl).symm k) = ix2 n k := funext fun a => Fin.ext (by
    match a with
    | ⟨0, _⟩ => exact first_rhs_0 _ _
    | ⟨1, _⟩ => exact (first_rhs_1 _ _).trans hk)
  rw [el, er]

/-! ## The second product: the 2000 hidden rows against the 2 rows of the second weight matrix -/

theorem second_lhs_0 (i : S2000x2.Idx) (q : dot_S2000x256_S2x256_S2000x2_1_1_0_0_n_n.contr.Idx) :
    (dot_S2000x256_S2x256_S2000x2_1_1_0_0_n_n.lhsIdx i q 0).val = (i 0).val := by
  unfold DotDims.lhsIdx
  rw [dif_neg (show ¬(0 : Fin S2000x256.rank) ∈ dot_S2000x256_S2x256_S2000x2_1_1_0_0_n_n.lhsBatch by decide), dif_pos (show (0 : Fin S2000x256.rank) ∈ dot_S2000x256_S2x256_S2000x2_1_1_0_0_n_n.lhsNonContracting by decide)]
  rfl
theorem second_lhs_1 (i : S2000x2.Idx) (q : dot_S2000x256_S2x256_S2000x2_1_1_0_0_n_n.contr.Idx) :
    (dot_S2000x256_S2x256_S2000x2_1_1_0_0_n_n.lhsIdx i q 1).val = (q ⟨0, by decide⟩).val :=
  dot_S2000x256_S2x256_S2000x2_1_1_0_0_n_n.lhsIdx_val_of_single rfl i q
theorem second_rhs_0 (i : S2000x2.Idx) (q : dot_S2000x256_S2x256_S2000x2_1_1_0_0_n_n.contr.Idx) :
    (dot_S2000x256_S2x256_S2000x2_1_1_0_0_n_n.rhsIdx i q 0).val = (i 1).val := by
  unfold DotDims.rhsIdx
  rw [dif_neg (show ¬(0 : Fin S2x256.rank) ∈ dot_S2000x256_S2x256_S2000x2_1_1_0_0_n_n.rhsBatch by decide), dif_pos (show (0 : Fin S2x256.rank) ∈ dot_S2000x256_S2x256_S2000x2_1_1_0_0_n_n.rhsNonContracting by decide)]
  rfl
theorem second_rhs_1 (i : S2000x2.Idx) (q : dot_S2000x256_S2x256_S2000x2_1_1_0_0_n_n.contr.Idx) :
    (dot_S2000x256_S2x256_S2000x2_1_1_0_0_n_n.rhsIdx i q 1).val = (q ⟨0, by decide⟩).val :=
  dot_S2000x256_S2x256_S2000x2_1_1_0_0_n_n.rhsIdx_val_of_single rfl i q

/-- Entry (p, n) of the second product: the inner product of row p of the left factor with row n of the right factor. -/
theorem second_apply {φ₁ φ₂ : FTy} (l : FVec Ideal S2000x256 φ₁) (r : FVec Ideal S2x256 φ₂) (p : Fin 2000) (n : Fin 2) :
    matmul dot_S2000x256_S2x256_S2000x2_1_1_0_0_n_n none l r (constant S2000x2 .f32 0x00000000#32) (ix2 p n)
      = ∑ k : Fin 256, l (ix2 p k) * r (ix2 n k) := by
  simp only [matmul]
  rw [Ideal.matmul_constant_zero_apply, ← Equiv.sum_comp (contrEquiv1 dot_S2000x256_S2x256_S2000x2_1_1_0_0_n_n 256 rfl rfl).symm]
  refine Finset.sum_congr rfl fun k _ => ?_
  have hk := contrEquiv1_symm_val dot_S2000x256_S2x256_S2000x2_1_1_0_0_n_n 256 rfl rfl k
  have el : dot_S2000x256_S2x256_S2000x2_1_1_0_0_n_n.lhsIdx (ix2 p n) ((contrEquiv1 dot_S2000x256_S2x256_S2000x2_1_1_0_0_n_n 256 rfl rfl).symm k) = ix2 p k := funext fun a => Fin.ext (by
    match a with
    | ⟨0, _⟩ => exact second_lhs_0 _ _
    | ⟨1, _⟩ => exact (second_lhs_1 _ _).trans hk)
  have er : dot_S2000x256_S2x256_S2000x2_1_1_0_0_n_n.rhsIdx (ix2 p n) ((contrEquiv1 dot_S2000x256_S2x256_S2000x2_1_1_0_0_n_n 256 rfl rfl).symm k) = ix2 n k := funext fun a => Fin.ext (by
    match a with
    | ⟨0, _⟩ => exact second_rhs_0 _ _
    | ⟨1, _⟩ => exact (second_rhs_1 _ _).trans hk)
  rw [el, er]

end Cert.KernelIdeal.Dots

end
-- ==== Proof.MlpSpec.lean ====
/-
  A two-layer perceptron without biases applied to every row of a matrix, over the extended reals.
  For a matrix x with 512 columns, a first weight matrix w₁ of 256 rows and 512 columns and a second weight matrix w₂ of
  2 rows and 256 columns, the hidden entry (r, k) is the leaky rectifier of the inner product of row r of x with row k of
  w₁, and the output entry (r, c) is the inner product of hidden row r with row c of w₂:
      out(r, c) = ∑ₖ leaky (∑ⱼ x(r, j) · w₁(k, j)) · w₂(c, k).
  The leaky rectifier keeps a value that is at least zero and scales any other value by the slope, a fixed single
  precision number near one hundredth; the slope is never evaluated, since both programs carry the same word.
  Each output entry depends on one row of x only, so the network on a block of rows of x is the same block of rows of the
  network on x.
-/
import Idealize.ShloMosaic.PureOps.Ideal.Laws
import Idealize.ShloMosaic.Lib.ValueIdx

noncomputable section

open Idealize.ShloMosaic Idealize.ShloMosaic.ValueIdx

namespace Cert.MlpSpec

/-- The leaky rectifier: h when 0 ≤ h, the slope times h otherwise. -/
def leaky (h : EReal) : EReal :=
  Scalar.select (Ideal.cmp .oge h (Ideal.ofBits .f32 0x00000000#32)) h (Ideal.ofBits .f32 0x3C23D70A#32 * h)

/-- Hidden entry (r, k): the rectified inner product of row r of x with row k of w₁. -/
def hidden {M : ℕ} (x : (⟨2, ![M, 512]⟩ : Shape).Idx → EReal) (w₁ : (⟨2, ![256, 512]⟩ : Shape).Idx → EReal)
    (r : Fin M) (k : Fin 256) : EReal :=
  leaky (∑ j : Fin 512, x (ix2 r j) * w₁ (ix2 k j))

/-- Output entry (r, c): the inner product of hidden row r with row c of w₂. -/
def logits {M : ℕ} (x : (⟨2, ![M, 512]⟩ : Shape).Idx → EReal) (w₁ : (⟨2, ![256, 512]⟩ : Shape).Idx → EReal)
    (w₂ : (⟨2, ![2, 256]⟩ : Shape).Idx → EReal) : (⟨2, ![M, 2]⟩ : Shape).Idx → EReal :=
  fun i => ∑ k : Fin 256, hidden x w₁ (i 0) k * w₂ (ix2 (i 1) k)

theorem logits_ix2 {M : ℕ} (x : (⟨2, ![M, 512]⟩ : Shape).Idx → EReal) (w₁ : (⟨2, ![256, 512]⟩ : Shape).Idx → EReal)
    (w₂ : (⟨2, ![2, 256]⟩ : Shape).Idx → EReal) (r : Fin M) (c : Fin 2) :
    logits x w₁ w₂ (ix2 r c) = ∑ k : Fin 256, hidden x w₁ r k * w₂ (ix2 c k) := rfl

/-- The network on the rows of a matrix b, at an entry y, is the network on the rows of a matrix x at an entry i, when
    row y₀ of b is row i₀ of x and the two entries are in the same column. -/
theorem logits_of_row {M M' : ℕ} (x : (⟨2, ![M, 512]⟩ : Shape).Idx → EReal) (b : (⟨2, ![M', 512]⟩ : Shape).Idx → EReal)
    (w₁ : (⟨2, ![256, 512]⟩ : Shape).Idx → EReal) (w₂ : (⟨2, ![2, 256]⟩ : Shape).Idx → EReal)
    (y : (⟨2, ![M', 2]⟩ : Shape).Idx) (i : (⟨2, ![M, 2]⟩ : Shape).Idx)
    (hrow : ∀ j : Fin 512, b (ix2 (n0 := M') (y 0) j) = x (ix2 (n0 := M) (i 0) j)) (hcol : y 1 = i 1) :
    logits b w₁ w₂ y = logits x w₁ w₂ i := by
  unfold logits hidden
  rw [hcol]
  exact Finset.sum_congr rfl fun k _ => by rw [Finset.sum_congr rfl fun j _ => by rw [hrow j]]

end Cert.MlpSpec

end
-- ==== Proof.KernelBlock.lean ====
/-
  What the kernel body computes from its three loaded blocks, over the extended reals: the perceptron of `MlpSpec` on the
  block. The body rounds the block of x to half precision (the identity on extended reals), multiplies it with the rows
  of the first weight matrix into a zero accumulator, applies the leaky rectifier entry by entry (a comparison with
  zero selecting between the product and the slope times the product), rounds again, and multiplies with the rows of
  the second weight matrix into a zero accumulator. Read at an entry (p, q) this is
      ∑ₖ leaky (∑ⱼ x(p, j) · w₁(k, j)) · w₂(q, k).
-/
import proofs.«117418_g39908836114553_cont_8to1_b_374_4_alg».proof.Proof.Gen.KernelIdeal.Skeleton
import proofs.«117418_g39908836114553_cont_8to1_b_374_4_alg».proof.Proof.KernelDots
import proofs.«117418_g39908836114553_cont_8to1_b_374_4_alg».proof.Proof.MlpSpec
import Idealize.ShloMosaic.Lib.Pipeline.Value

noncomputable section

open Idealize.ShloMosaic Idealize.ShloMosaic.ValueIdx

namespace Cert.KernelIdeal.Block

open Cert.KernelIdeal Cert.KernelIdeal.Gen

/-- The body's stored value is the perceptron of its loaded blocks. -/
theorem pay_eq_logits (x0 : Vec Ideal S2000x512 .f32) (x1 : Vec Ideal S256x512 .bf16) (x2 : Vec Ideal S2x256 .bf16) :
    k0_pay1 x0 x1 x2 = Cert.MlpSpec.logits x0 x1 x2 := by
  funext i
  obtain ⟨p, q, rfl⟩ : ∃ (p : Fin 2000) (q : Fin 2), i = ix2 p q := ⟨i 0, i 1, eq_ix2 i⟩
  unfold k0_pay1
  rw [Cert.KernelIdeal.Dots.second_apply, Cert.MlpSpec.logits_ix2]
  refine Finset.sum_congr rfl fun k _ => ?_
  simp only [truncf_apply, select_apply, cmpf_apply, mulf_apply, broadcast_apply, shapeCast_self,
    Cert.KernelIdeal.Dots.first_apply]
  rfl

end Cert.KernelIdeal.Block

end
-- ==== Proof.KernelValue.lean ====
/-
  The kernel's result array after its run is the perceptron of `MlpSpec` of the three argument arrays.
  The grid has 50 points. At point t the kernel loads rows 2000·t … 2000·t + 1999 of x (all 512 columns), the whole
  first weight matrix and the whole second weight matrix (each rounded to half precision on the host before the
  launch, which is the identity on extended reals), and writes rows 2000·t … 2000·t + 1999 of the result (both columns).
  An output entry of the perceptron depends on one row of x only, so what point t writes is that block of rows of the
  perceptron of the whole arrays; the 50 blocks of rows cover all 100000 rows, so the result array is the perceptron.
-/
import proofs.«117418_g39908836114553_cont_8to1_b_374_4_alg».proof.Proof.Gen.KernelIdeal.Value
import proofs.«117418_g39908836114553_cont_8to1_b_374_4_alg».proof.Proof.KernelBlock
import proofs.«117418_g39908836114553_cont_8to1_b_374_4_alg».proof.Proof.MlpSpec
import Idealize.ShloMosaic.Lib.Pipeline.Value
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.Whole

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-- The three argument arrays as launched. -/
abbrev xarr (c : Dev nD) : S100000x512.Idx → EReal := m ((c : Thread nD τ).loc main_arg0)
abbrev w1arr (c : Dev nD) : S256x512.Idx → EReal := m ((c : Thread nD τ).loc main_arg1)
abbrev w2arr (c : Dev nD) : S2x256.Idx → EReal := m ((c : Thread nD τ).loc main_arg2)

/-- The perceptron of the argument arrays: what the result array ends holding. -/
abbrev result (c : Dev nD) : S100000x2.Idx → EReal := Cert.MlpSpec.logits (xarr m c) (w1arr m c) (w2arr m c)

/-- The half-precision copy of the first weight matrix the host makes before the launch is the matrix. -/
theorem V_w1 (c : Dev nD) : (V m c main_call0_v0 : S256x512.Idx → EReal) = w1arr m c := by
  dsimp only [Gen.V, Gen.hostOps0]; after_results; rfl

/-- The half-precision copy of the second weight matrix is the matrix. -/
theorem V_w2 (c : Dev nD) : (V m c main_call0_v1 : S2x256.Idx → EReal) = w2arr m c := by
  dsimp only [Gen.V, Gen.hostOps0]; after_results; rfl

/-- The block indices over the grid: the x window and the result window are at block (t, 0), the two weight windows
    stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The x window's block at point t is rows 2000·t … 2000·t + 1999 of x. -/
theorem xblk_apply (c : Dev nD) (t : Fin cfg0.N) (y : S2000x512.Idx) (k : S100000x512.Idx)
    (hk0 : (k 0).val = 2000 * t.val + (y 0).val) (hk1 : (k 1).val = (y 1).val) :
    (iblk m c 0 t : Vec Ideal S2000x512 .f32) y = xarr m c k := by
  obtain ⟨e0, e1, -⟩ := idx_facts t
  unfold iblk
  rw [View.read_apply]
  show V m c main_arg0 _ = m ((c : Thread nD τ).loc main_arg0) k
  rw [V_main_arg0]
  congr 1
  funext a
  apply Fin.ext
  match a with
  | ⟨0, _⟩ => show win0_0.index t (0 : Fin 2) * 2000 + 1 * (y 0).val = (k 0).val; rw [e0, hk0]; omega
  | ⟨1, _⟩ => show win0_0.index t (1 : Fin 2) * 512 + 1 * (y 1).val = (k 1).val; rw [e1, hk1]; omega

/-- The first weight window's block at every point is the whole first weight matrix. -/
theorem w1blk_eq (c : Dev nD) (t : Fin cfg0.N) : (iblk m c 1 t : Vec Ideal S256x512 .bf16) = w1arr m c := by
  obtain ⟨-, -, e0, e1, -⟩ := idx_facts t
  funext y
  unfold iblk
  rw [View.read_apply]
  show (V m c main_call0_v0 : S256x512.Idx → EReal) _ = w1arr m c y
  rw [V_w1]
  congr 1
  funext a
  apply Fin.ext
  match a with
  | ⟨0, _⟩ => show win0_1.index t (0 : Fin 2) * 256 + 1 * (y 0).val = (y 0).val; rw [e0]; omega
  | ⟨1, _⟩ => show win0_1.index t (1 : Fin 2) * 512 + 1 * (y 1).val = (y 1).val; rw [e1]; omega

/-- The second weight window's block at every point is the whole second weight matrix. -/
theorem w2blk_eq (c : Dev nD) (t : Fin cfg0.N) : (iblk m c 2 t : Vec Ideal S2x256 .bf16) = w2arr m c := by
  obtain ⟨-, -, -, -, e0, e1, -⟩ := idx_facts t
  funext y
  unfold iblk
  rw [View.read_apply]
  show (V m c main_call0_v1 : S2x256.Idx → EReal) _ = w2arr m c y
  rw [V_w2]
  congr 1
  funext a
  apply Fin.ext
  match a with
  | ⟨0, _⟩ => show win0_2.index t (0 : Fin 2) * 2 + 1 * (y 0).val = (y 0).val; rw [e0]; omega
  | ⟨1, _⟩ => show win0_2.index t (1 : Fin 2) * 256 + 1 * (y 1).val = (y 1).val; rw [e1]; omega

/-- What point t writes back is rows 2000·t … 2000·t + 1999 of the perceptron of the argument arrays. -/
theorem flushed_eq (c : Dev nD) (t : Fin cfg0.N) :
    (dats m 0 c).flushed 3 t = ((cfg0.win 3).blk t).view.read (Elt Ideal) (result m c) := by
  rw [Value.flushed3]
  unfold Gen.out0_3
  rw [View.canon_unit_zero hz]
  simp only [View.ld_unit_zero (S := S2000x512) hz, View.ld_unit_zero (S := S256x512) hz, View.ld_unit_zero (S := S2x256) hz]
  obtain ⟨-, -, -, -, -, -, e0, e1⟩ := idx_facts t
  funext j
  show k0_pay1 (iblk m c 0 t) (iblk m c 1 t) (iblk m c 2 t) j = result m c (((cfg0.win 3).blk t).view.emb j)
  refine (congrFun (Cert.KernelIdeal.Block.pay_eq_logits (iblk m c 0 t) (iblk m c 1 t) (iblk m c 2 t)) j).trans ?_
  rw [w1blk_eq, w2blk_eq]
  refine Cert.MlpSpec.logits_of_row (xarr m c) (iblk m c 0 t) (w1arr m c) (w2arr m c) j _ (fun q => ?_) ?_
  · refine xblk_apply m c t _ _ ?_ rfl
    show win0_3.index t (0 : Fin 2) * 2000 + 1 * (j 0).val = 2000 * t.val + (j 0).val
    rw [e0]; omega
  · apply Fin.ext
    show (j 1).val = win0_3.index t (1 : Fin 2) * 2 + 1 * (j 1).val
    rw [e1]; omega

/-- An index of the result array is in point t's block iff each coordinate is in the block's range on its axis. -/
theorem mem_blk (t : Fin cfg0.N) (i : S100000x2.Idx) :
    i ∈ ((cfg0.win 3).blk t).view.set ↔ ∀ a : Fin 2, win0_3.index t a * S2000x2.size a ≤ (i a).val ∧ (i a).val < win0_3.index t a * S2000x2.size a + S2000x2.size a := by
  show i ∈ ((View.whole main_v0).slice (win0_3.rect t)).set ↔ _
  rw [View.set_slice_whole, Rect.mem_set_unit]
  exact Iff.rfl

/-- Every row of the result is in the block of the point its row number divided by 2000 names. -/
theorem cover (i : S100000x2.Idx) : ∃ t : Fin cfg0.N, (cfg0.win 3).flush t = true ∧ i ∈ ((cfg0.win 3).blk t).view.set := by
  have hi0 : (i 0).val < 100000 := (i 0).isLt
  have hi1 : (i 1).val < 2 := (i 1).isLt
  have hN : cfg0.N = 50 := N_0
  let t : Fin cfg0.N := ⟨(i 0).val / 2000, by rw [hN]; omega⟩
  obtain ⟨-, -, -, -, -, -, e0, e1⟩ := idx_facts t
  have ht : t.val = (i 0).val / 2000 := rfl
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; rw [e0, ht]; omega
  | ⟨1, _⟩ => show win0_3.index t (1 : Fin 2) * 2 ≤ (i 1).val ∧ (i 1).val < win0_3.index t (1 : Fin 2) * 2 + 2; rw [e1]; omega

/-- The result array after the run is the perceptron of the argument arrays. -/
theorem final (c : Dev nD) : (dats m 0 c).arrAt 3 cfg0.N = result m c :=
  (dats m 0 c).arrAt_eq_of_cover 3 (result m c) (fun t _ => flushed_eq m c t) cover

/-- The run, read: the result array at the perceptron of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefValue.lean ====
/-
  The reference computes the perceptron of `MlpSpec`: its last stage, read at an entry (r, c), is the sum over the hidden
  coordinate k of the rectified first product at (r, k) times the transposed second weight matrix at (k, c). The first
  product at (r, k) is the sum over j of x(r, j) times the transposed first weight matrix at (j, k); a transposed matrix
  at (a, b) is the matrix at (b, a). So the operand positions are (r, j) and (k, j) in the first product and (r, k) and
  (c, k) in the second, which are the positions the specification reads.
-/
import proofs.«117418_g39908836114553_cont_8to1_b_374_4_alg».proof.Proof.Gen.ReferenceIdeal.Read
import proofs.«117418_g39908836114553_cont_8to1_b_374_4_alg».proof.Proof.MlpSpec

noncomputable section

open Idealize.ShloMosaic Idealize.ShloMosaic.ValueIdx

namespace Cert.ReferenceIdeal.RefValue

open Cert.ReferenceIdeal Cert.ReferenceIdeal.Gen Cert.ReferenceIdeal.Read

/-- Left position of the second product at output (r, c) and hidden coordinate k: (r, k). -/
theorem lpos_second (r : Fin 100000) (c : Fin 2) (k : Fin 256) : lidx_main_v8 (ix2 r c) k = ix2 r k :=
  funext fun a => Fin.ext (by match a with | ⟨0, _⟩ => rfl | ⟨1, _⟩ => rfl)

/-- Right position of the second product, through the transposition: (c, k). -/
theorem rpos_second (r : Fin 100000) (c : Fin 2) (k : Fin 256) : idx_main_v7 (ridx_main_v8 (ix2 r c) k) = ix2 c k :=
  funext fun a => Fin.ext (by match a with | ⟨0, _⟩ => rfl | ⟨1, _⟩ => rfl)

/-- Left position of the first product at output (r, k) and coordinate j: (r, j). -/
theorem lpos_first (r : Fin 100000) (k : Fin 256) (j : Fin 512) : lidx_main_v1 (ix2 r k) j = ix2 r j :=
  funext fun a => Fin.ext (by match a with | ⟨0, _⟩ => rfl | ⟨1, _⟩ => rfl)

/-- Right position of the first product, through the transposition: (k, j). -/
theorem rpos_first (r : Fin 100000) (k : Fin 256) (j : Fin 512) : idx_main_v0 (ridx_main_v1 (ix2 r k) j) = ix2 k j :=
  funext fun a => Fin.ext (by match a with | ⟨0, _⟩ => rfl | ⟨1, _⟩ => rfl)

/-- The reference's last stage is the perceptron of its three arguments. -/
theorem val_eq_logits (x0 : (⟨S100000x512, .f32⟩ : BufTy).Contents (Elt Ideal)) (x1 : (⟨S256x512, .f32⟩ : BufTy).Contents (Elt Ideal))
    (x2 : (⟨S2x256, .f32⟩ : BufTy).Contents (Elt Ideal)) :
    val_main_v8 (F := Ideal) x0 x1 x2 = Cert.MlpSpec.logits x0 x1 x2 := by
  funext i
  obtain ⟨r, c, rfl⟩ : ∃ (r : Fin 100000) (c : Fin 2), i = ix2 r c := ⟨i 0, i 1, eq_ix2 i⟩
  rw [val_main_v8_apply, Cert.MlpSpec.logits_ix2]
  refine Finset.sum_congr rfl fun k _ => ?_
  rw [val_main_v7_apply, val_main_v6_apply, val_main_v3_apply, val_main_v5_apply, val_main_v4_apply, val_main_v2_apply,
    val_main_v1_apply, lpos_second, rpos_second]
  simp only [val_main_v0_apply, lpos_first, rpos_first]
  rfl

end Cert.ReferenceIdeal.RefValue

end
-- ==== Proof.lean ====
/-
  The certificate of a fused two-layer perceptron kernel against its plain reference, over the extended reals.

  Both programs compute, for a matrix x of 100000 rows and 512 columns, a first weight matrix w₁ of 256 rows and 512
  columns and a second weight matrix w₂ of 2 rows and 256 columns,
      out(r, c) = ∑ₖ leaky (∑ⱼ x(r, j) · w₁(k, j)) · w₂(c, k),
  where the leaky rectifier keeps a value that is at least zero and multiplies any other by the slope, the same single
  precision word in both programs. The kernel walks over x in 50 blocks of 2000 rows, rounds x, the hidden values and
  the two weight matrices to half precision (the identity on extended reals) and multiplies against the rows of the
  weight matrices; the reference transposes each weight matrix and multiplies against its columns. Read at an entry the
  two are the same double sum with the same factors in the same places, so no law of the extended reals is used beyond
  renaming a summation index, and the finiteness of the inputs is never opened.

  The three frames are the generated ones (the reference's from its generated run); the idealization rewrote nothing,
  so its claim is trivial; the equivalence sets the kernel's run, with its result array read as the perceptron of the
  arguments (`KernelValue`), beside the reference's run, whose last stage is the same perceptron (`RefValue`).
-/
import proofs.«117418_g39908836114553_cont_8to1_b_374_4_alg».proof.Defs
import proofs.«117418_g39908836114553_cont_8to1_b_374_4_alg».proof.Proof.Gen.Kernel
import proofs.«117418_g39908836114553_cont_8to1_b_374_4_alg».proof.Proof.Gen.Kernel.Skeleton
import proofs.«117418_g39908836114553_cont_8to1_b_374_4_alg».proof.Proof.Gen.Kernel.Launch
import proofs.«117418_g39908836114553_cont_8to1_b_374_4_alg».proof.Proof.Gen.Kernel.Points
import proofs.«117418_g39908836114553_cont_8to1_b_374_4_alg».proof.Proof.Gen.Kernel.Frame
import proofs.«117418_g39908836114553_cont_8to1_b_374_4_alg».proof.Proof.Gen.KernelIdeal
import proofs.«117418_g39908836114553_cont_8to1_b_374_4_alg».proof.Proof.Gen.KernelIdeal.Skeleton
import proofs.«117418_g39908836114553_cont_8to1_b_374_4_alg».proof.Proof.Gen.KernelIdeal.Launch
import proofs.«117418_g39908836114553_cont_8to1_b_374_4_alg».proof.Proof.Gen.KernelIdeal.Points
import proofs.«117418_g39908836114553_cont_8to1_b_374_4_alg».proof.Proof.Gen.KernelIdeal.Frame
import proofs.«117418_g39908836114553_cont_8to1_b_374_4_alg».proof.Proof.Gen.ReferenceIdeal
import proofs.«117418_g39908836114553_cont_8to1_b_374_4_alg».proof.Proof.Gen.Pre_finite_inputs
import proofs.«117418_g39908836114553_cont_8to1_b_374_4_alg».proof.Proof.Gen.KernelIdeal.Value
import proofs.«117418_g39908836114553_cont_8to1_b_374_4_alg».proof.Proof.Gen.ReferenceIdeal.Run
import proofs.«117418_g39908836114553_cont_8to1_b_374_4_alg».proof.Proof.Gen.ReferenceIdeal.Read
import proofs.«117418_g39908836114553_cont_8to1_b_374_4_alg».proof.Proof.KernelValue
import proofs.«117418_g39908836114553_cont_8to1_b_374_4_alg».proof.Proof.RefValue
import Idealize.ShloMosaic.Adequacy
import Idealize.ShloMosaic.Init

noncomputable section

namespace Cert.Proof

open Idealize.ShloMosaic Idealize.SL.Sem

/-- The kernel as printed terminates without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments the kernel's result array and the reference's result both end at
    the perceptron of the arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.val_eq_logits,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
